-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8192x2048 : Shape := ⟨2, ![8192, 2048]⟩
abbrev S8192 : Shape := ⟨1, ![8192]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S16384x2048 .f32) (main_arg1 : FVec F S8192x2048 .f32) (main_arg2 : FVec F S8192 .f32) (main_arg3 : FVec F S8192x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Kernel.lean ====
abbrev S16384x2048 : Shape := ⟨2, ![16384, 2048]⟩
abbrev S8192x2048 : Shape := ⟨2, ![8192, 2048]⟩
abbrev S8192 : Shape := ⟨1, ![8192]⟩
abbrev S1x8192 : Shape := ⟨2, ![1, 8192]⟩
abbrev S16384x8192 : Shape := ⟨2, ![16384, 8192]⟩
abbrev S512x2048 : Shape := ⟨2, ![512, 2048]⟩
abbrev S1x512 : Shape := ⟨2, ![1, 512]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S1x8192, .f32⟩
  | .hbm, ⟨5, _⟩ => ⟨S16384x8192, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S16384x8192.size a
  hwx0_4 : ∀ i : grid0.Coords, EltTy.bits .f32 = 32 ∨ (Rect.block (s := S16384x8192) S512x512.size (cc0_transform_4 i) (hinb0_4 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S8192x2048 : Shape := ⟨2, ![8192, 2048]⟩
abbrev S8192 : Shape := ⟨1, ![8192]⟩
abbrev S2048x8192 : Shape := ⟨2, ![2048, 8192]⟩
abbrev S16384x8192 : Shape := ⟨2, ![16384, 8192]⟩
abbrev S1x8192 : Shape := ⟨2, ![1, 8192]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S8192x2048, .f32⟩
  | .hbm, ⟨5, _⟩ => ⟨S2048x8192, .f32⟩
  | .hbm, ⟨6, _⟩ => ⟨S16384x8192, .f32⟩
  | .hbm, ⟨7, _⟩ => ⟨S1x8192, .f32⟩
  | .hbm, ⟨8, _⟩ => ⟨S16384x8192, .f32⟩
  | .hbm, ⟨9, _⟩ => ⟨S16384x8192, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)
  dot_S16384x2048_S2048x8192_S16384x8192_1_0_0_1_n_n_wf : DotDims.WF S16384x2048 S2048x8192 S16384x8192 [1] [0] [0] [1] [] []

variable [Facts₀]

def dot_S16384x2048_S2048x8192_S16384x8192_1_0_0_1_n_n : DotDims S16384x2048 S2048x8192 S16384x8192 where
  lhsContracting := [1]
  rhsContracting := [0]
  lhsNonContracting := [0]
  rhsNonContracting := [1]
  lhsBatch := []
  rhsBatch := []
  wf := dot_S16384x2048_S2048x8192_S16384x8192_1_0_0_1_n_n_wf

class Facts : Prop extends Facts₀ where

variable [Facts]
-- ==== Proof.Spec.lean ====
/-
  The function both programs compute, as ONE function of the four argument arrays: a linear layer whose weight matrix
  is masked entry by entry,

      y[r, n] = (sum over k < 2048 of x[r, k] * (mask[n, k] * w[n, k])) + b[n],

  for r < 16384 and n < 8192, over the extended reals. Nothing here mentions a program: the shapes are literal and
  the indices are built from their coordinates.
-/
import Idealize.ShloMosaic.Lib.ValueIdx

noncomputable section

open scoped BigOperators

namespace Cert.MaskedLinear

open Idealize.ShloMosaic Idealize.ShloMosaic.ValueIdx

/-- Row `r` of `x` against row `n` of the masked weight `mask * w`, plus the bias of column `n`. -/
def maskedLinear (x : FVec Ideal ⟨2, ![16384, 2048]⟩ .f32) (w msk : FVec Ideal ⟨2, ![8192, 2048]⟩ .f32)
    (b : FVec Ideal ⟨1, ![8192]⟩ .f32) : FVec Ideal ⟨2, ![16384, 8192]⟩ .f32 :=
  fun i => (∑ k : Fin 2048, x (ix2 (i 0) k) * (msk (ix2 (i 1) k) * w (ix2 (i 1) k))) + b (ix1 (i 1))

theorem maskedLinear_apply (x : FVec Ideal ⟨2, ![16384, 2048]⟩ .f32) (w msk : FVec Ideal ⟨2, ![8192, 2048]⟩ .f32)
    (b : FVec Ideal ⟨1, ![8192]⟩ .f32) (r : Fin 16384) (n : Fin 8192) :
    maskedLinear x w msk b (ix2 r n) = (∑ k : Fin 2048, x (ix2 r k) * (msk (ix2 n k) * w (ix2 n k))) + b (ix1 n) := rfl

end Cert.MaskedLinear

end
-- ==== Proof.RefIsSpec.lean ====
/-
  The reference, read one operation at a time, is the masked linear layer: its product `mask * w` is transposed and
  contracted with `x` over the shared axis of length 2048, so entry (r, n) of the `dot_general` is the sum over k of
  x[r, k] * (mask[n, k] * w[n, k]); the bias, broadcast first to one row and then down the rows, adds b[n].
-/
import proofs.«177107_j47304769798211_1_alg».proof.Proof.Gen.ReferenceIdeal.Read
import proofs.«177107_j47304769798211_1_alg».proof.Proof.Spec

noncomputable section

open scoped BigOperators

namespace Cert.MaskedLinear.Reference

open Cert.ReferenceIdeal Cert.ReferenceIdeal.Read Idealize.ShloMosaic Idealize.ShloMosaic.ValueIdx

/-- The left operand of the contraction is read at (r, k). -/
theorem lidx_eq (i : S16384x8192.Idx) (k : Fin 2048) : lidx_main_v2 i k = ix2 (i 0) k :=
  funext fun a => Fin.ext (by match a with | ⟨0, _⟩ => rfl | ⟨1, _⟩ => rfl)

/-- The right operand, a transpose, is read at (k, n), that is the product `mask * w` at (n, k). -/
theorem ridx_eq (i : S16384x8192.Idx) (k : Fin 2048) : idx_main_v1 (ridx_main_v2 i k) = ix2 (i 1) k :=
  funext fun a => Fin.ext (by match a with | ⟨0, _⟩ => rfl | ⟨1, _⟩ => rfl)

/-- The twice-broadcast bias is read at n. -/
theorem bidx_eq (i : S16384x8192.Idx) : idx_main_v3 (idx_main_v4 i) = ix1 (i 1) :=
  funext fun a => Fin.ext (by match a with | ⟨0, _⟩ => rfl)

/-- The reference's result is the masked linear layer of its arguments (`x1` the weight, `x3` the mask, `x2` the bias). -/
theorem val_eq (x0 : FVec Ideal S16384x2048 .f32) (x1 : FVec Ideal S8192x2048 .f32) (x2 : FVec Ideal S8192 .f32)
    (x3 : FVec Ideal S8192x2048 .f32) :
    val_main_v5 (F := Ideal) x0 x1 x2 x3 = maskedLinear x0 x1 x3 x2 := by
  funext i
  rw [val_main_v5_apply, val_main_v2_apply, val_main_v4_apply, val_main_v3_apply]
  simp only [val_main_v1_apply, val_main_v0_apply, lidx_eq, ridx_eq, bidx_eq, Ideal.mulf_def, Ideal.addf_def]
  rfl

end Cert.MaskedLinear.Reference

end
-- ==== Proof.KernelPayload.lean ====
/-
  The kernel body's one stored value, read at an entry (p, q) of the 512 x 512 output block. The body multiplies the
  mask block and the weight block entry by entry, contracts the x block with that product over the shared axis of
  length 2048 (row p of x against row q of the product, into a zero accumulator), and adds the bias row broadcast
  down the 512 rows. Changes of float format are the identity over the extended reals, so the entry is

      (sum over k < 2048 of x[p, k] * (mask[q, k] * w[q, k])) + bias[0, q].
-/
import proofs.«177107_j47304769798211_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.MaskedLinear.Kernel

open Cert.KernelIdeal Cert.KernelIdeal.Gen Idealize.ShloMosaic Idealize.ShloMosaic.ValueIdx

/-! ## The block product's operand indices -/

/-- The left operand's row is the output entry's row. -/
theorem lhs_dot_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
/-- The left operand's column is the contraction position. -/
theorem lhs_dot_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
/-- The right operand's row is the output entry's column: the right operand enters the product transposed. -/
theorem rhs_dot_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
/-- The right operand's column is the contraction position. -/
theorem rhs_dot_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- The block product into the zero accumulator, at entry (p, q): row p of the left operand against row q of the
    right one. -/
theorem blockProduct_apply (a b : FVec Ideal S512x2048 .bf16) (p q : Fin 512) :
    matmul (F := Ideal) dot_S512x2048_S512x2048_S512x512_1_1_0_0_n_n none a b (constant S512x512 .f32 0x00000000#32) (ix2 p q)
      = ∑ k : Fin 2048, a (ix2 p k) * b (ix2 q k) := by
  simp only [matmul]
  rw [Ideal.matmul_constant_zero_apply, ← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p q) ((contrEquiv1 dot_S512x2048_S512x2048_S512x512_1_1_0_0_n_n 2048 rfl rfl).symm k) = ix2 p k := funext fun x => Fin.ext (by
    match x with
    | ⟨0, _⟩ => exact lhs_dot_0 _ _
    | ⟨1, _⟩ => exact (lhs_dot_1 _ _).trans hk)
  have er : dot_S512x2048_S512x2048_S512x512_1_1_0_0_n_n.rhsIdx (ix2 p q) ((contrEquiv1 dot_S512x2048_S512x2048_S512x512_1_1_0_0_n_n 2048 rfl rfl).symm k) = ix2 q k := funext fun x => Fin.ext (by
    match x with
    | ⟨0, _⟩ => exact rhs_dot_0 _ _
    | ⟨1, _⟩ => exact (rhs_dot_1 _ _).trans hk)
  rw [el, er]

/-! ## The bias row under the rows of the block -/

/-- The one-row bias block, cast to its own shape and broadcast down 512 rows, at (p, q) is its entry (0, q). -/
theorem biasRows_apply (v : FVec Ideal S1x512 .f32) (p q : Fin 512) :
    broadcastTo S512x512 (shapeCast S1x512 v shapeCasts_S1x512_S1x512) broadcasts_S1x512_S512x512 (ix2 p q) = v (ix2 0 q) := by
  rw [shapeCast_self]
  exact broadcastTo_apply v broadcasts_S1x512_S512x512 (ix2 p q) (ix2 0 q) (fun x => by
    match x with
    | ⟨0, _⟩ => rfl
    | ⟨1, _⟩ => rfl)

/-! ## The stored value -/

/-- The body's stored value at (p, q), from its four loaded blocks: `x` the block of x, `msk` of the mask, `w` of the
    weight, `bias` the one-row block of the bias. -/
theorem pay_apply (x msk w : Vec Ideal S512x2048 .f32) (bias : Vec Ideal S1x512 .f32) (p q : Fin 512) :
    k0_pay1 (F := Ideal) x msk w bias (ix2 p q)
      = (∑ k : Fin 2048, x (ix2 p k) * (msk (ix2 q k) * w (ix2 q k))) + bias (ix2 0 q) := by
  unfold k0_pay1
  rw [addf_apply, blockProduct_apply, biasRows_apply]
  rfl

end Cert.MaskedLinear.Kernel

end
-- ==== Proof.Blocks.lean ====
/-
  From the blocks each grid point writes to the whole output array. The grid has 16 x 32 points; point t works on the
  block row t mod 32 of x (512 rows) and the block row t / 32 of the weight, the mask and the bias (512 output columns),
  and writes the 512 x 512 block at (t mod 32, t / 32) of the output. What it writes is the masked linear layer of the
  whole arrays, read through that block: row p of the x block is row (t mod 32) * 512 + p of x, row q of the weight
  and mask blocks is row (t / 32) * 512 + q of the weight and the mask, entry q of the bias block is entry
  (t / 32) * 512 + q of the bias (the bias reaches the kernel as a one-row matrix, its entries in the same order).
  The 32 x 16 output blocks tile the 16384 x 8192 array, so after the run the array is that function everywhere.
-/
import proofs.«177107_j47304769798211_1_alg».proof.Proof.Gen.KernelIdeal.Value
import proofs.«177107_j47304769798211_1_alg».proof.Proof.KernelPayload
import proofs.«177107_j47304769798211_1_alg».proof.Proof.Spec
import Idealize.ShloMosaic.Lib.StableHlo.Run

noncomputable section

open scoped BigOperators

namespace Cert.MaskedLinear.Kernel

open Cert.KernelIdeal Cert.KernelIdeal.Gen Cert.KernelIdeal.Value Idealize.ShloMosaic Idealize.ShloMosaic.TcCoe
open Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## One stored entry against the whole arrays -/

/-- If row p of the x block is row (i 0) of `X`, row q of the mask and weight blocks is row (i 1) of `M` and `W`, and
    entry q of the bias block is entry (i 1) of `B`, the body's stored value at (p, q) is the layer at `i`. -/
theorem pay_eq_layer (X : FVec Ideal ⟨2, ![16384, 2048]⟩ .f32) (W M : FVec Ideal ⟨2, ![8192, 2048]⟩ .f32)
    (B : FVec Ideal ⟨1, ![8192]⟩ .f32) (x msk w : Vec Ideal S512x2048 .f32) (bias : Vec Ideal S1x512 .f32)
    (i : (⟨2, ![16384, 8192]⟩ : Shape).Idx) (p q : Fin 512)
    (hx : ∀ k : Fin 2048, x (ix2 p k) = X (ix2 (i 0) k)) (hm : ∀ k : Fin 2048, msk (ix2 q k) = M (ix2 (i 1) k))
    (hw : ∀ k : Fin 2048, w (ix2 q k) = W (ix2 (i 1) k)) (hb : bias (ix2 0 q) = B (ix1 (i 1))) :
    k0_pay1 (F := Ideal) x msk w bias (ix2 p q) = maskedLinear X W M B i := by
  rw [pay_apply, hb]
  unfold maskedLinear
  simp only [hx, hm, hw]

/-! ## The bias as the region finds it -/

/-- The host reshapes the bias to one row before the region. -/
theorem V_biasRow (c : Dev nD) :
    (V m c main_v0 : S1x8192.Idx → EReal) = shapeCast S1x8192 (m ((c : Thread nD τ).loc main_arg2)) shapeCasts_S8192_S1x8192 := by
  dsimp only [Gen.V, Gen.hostOps0]
  after_results
  rfl

/-- Entry (0, n) of that row is entry n of the bias. -/
theorem V_biasRow_apply (c : Dev nD) (n : Fin 8192) :
    (V m c main_v0 : S1x8192.Idx → EReal) (ix2 0 n) = m ((c : Thread nD τ).loc main_arg2) (ix1 n) := by
  rw [V_biasRow]
  exact shapeCast_apply _ shapeCasts_S8192_S1x8192 (ix2 0 n) (ix1 n) (by
    rw [Shape.rowMajor_val_one, Shape.rowMajor_val_two]
    show n.val = 0 * 8192 + n.val
    omega)

/-! ## The index maps over the grid -/

theorem hz : (![0, 0] : Fin 2 → Nat) = fun _ => 0 := funext fun a => by fin_cases a <;> rfl

/-- The printed index maps, decided over the 512 grid points: the output block of point t is (t mod 32, t / 32); the x
    block follows the output's block row, the weight, mask and bias blocks its block column. -/
theorem idx_facts : ∀ t : Fin cfg0.N,
    win0_4.index t (0 : Fin 2) = t.val % 32 ∧ win0_4.index t (1 : Fin 2) = t.val / 32
    ∧ win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 2) = t.val / 32 ∧ win0_2.index t (1 : Fin 2) = 0
    ∧ win0_3.index t (0 : Fin 2) = 0 ∧ win0_3.index t (1 : Fin 2) = t.val / 32 :=
  (by decide +kernel : ∀ t : Fin grid0.N, _)

/-- Row p, column k of the x block at point t is row (block row) * 512 + p, column k of x. -/
theorem emb_x (t : Fin cfg0.N) (p q : Fin 512) (k : Fin 2048) :
    ((cfg0.win 0).blk t).view.emb (ix2 p k) = ix2 ((((cfg0.win 4).blk t).view.emb (ix2 p q)) 0) k := by
  obtain ⟨e0, e1, e2, e3, e4, e5, e6, e7, e8, e9⟩ := idx_facts t
  funext a; apply Fin.ext
  match a with
  | ⟨0, _⟩ => show win0_0.index t (0 : Fin 2) * 512 + 1 * p.val = win0_4.index t (0 : Fin 2) * 512 + 1 * p.val; omega
  | ⟨1, _⟩ => show win0_0.index t (1 : Fin 2) * 2048 + 1 * k.val = k.val; omega

/-- Row q, column k of the weight block at point t is row (block column) * 512 + q, column k of the weight. -/
theorem emb_w (t : Fin cfg0.N) (p q : Fin 512) (k : Fin 2048) :
    ((cfg0.win 1).blk t).view.emb (ix2 q k) = ix2 ((((cfg0.win 4).blk t).view.emb (ix2 p q)) 1) k := by
  obtain ⟨e0, e1, e2, e3, e4, e5, e6, e7, e8, e9⟩ := idx_facts t
  funext a; apply Fin.ext
  match a with
  | ⟨0, _⟩ => show win0_1.index t (0 : Fin 2) * 512 + 1 * q.val = win0_4.index t (1 : Fin 2) * 512 + 1 * q.val; omega
  | ⟨1, _⟩ => show win0_1.index t (1 : Fin 2) * 2048 + 1 * k.val = k.val; omega

/-- The same for the mask block. -/
theorem emb_m (t : Fin cfg0.N) (p q : Fin 512) (k : Fin 2048) :
    ((cfg0.win 2).blk t).view.emb (ix2 q k) = ix2 ((((cfg0.win 4).blk t).view.emb (ix2 p q)) 1) k := by
  obtain ⟨e0, e1, e2, e3, e4, e5, e6, e7, e8, e9⟩ := idx_facts t
  funext a; apply Fin.ext
  match a with
  | ⟨0, _⟩ => show win0_2.index t (0 : Fin 2) * 512 + 1 * q.val = win0_4.index t (1 : Fin 2) * 512 + 1 * q.val; omega
  | ⟨1, _⟩ => show win0_2.index t (1 : Fin 2) * 2048 + 1 * k.val = k.val; omega

/-- Entry (0, q) of the bias block at point t is entry (0, (block column) * 512 + q) of the bias row. -/
theorem emb_b (t : Fin cfg0.N) (p q : Fin 512) :
    ((cfg0.win 3).blk t).view.emb (ix2 0 q) = ix2 0 ((((cfg0.win 4).blk t).view.emb (ix2 p q)) 1) := by
  obtain ⟨e0, e1, e2, e3, e4, e5, e6, e7, e8, e9⟩ := idx_facts t
  funext a; apply Fin.ext
  match a with
  | ⟨0, _⟩ => show win0_3.index t (0 : Fin 2) * 1 + 1 * 0 = 0; omega
  | ⟨1, _⟩ => show win0_3.index t (1 : Fin 2) * 512 + 1 * q.val = win0_4.index t (1 : Fin 2) * 512 + 1 * q.val; omega

/-! ## What a point writes back, and the array after the run -/

/-- The masked linear layer of the argument arrays as launched. -/
abbrev layer (c : Dev nD) : S16384x8192.Idx → EReal :=
  maskedLinear (m ((c : Thread nD τ).loc main_arg0)) (m ((c : Thread nD τ).loc main_arg1))
    (m ((c : Thread nD τ).loc main_arg3)) (m ((c : Thread nD τ).loc main_arg2))

/-- What point t writes back is the layer read through point t's output block. -/
theorem flushed_eq (c : Dev nD) (t : Fin cfg0.N) :
    (dats m 0 c).flushed 4 t = ((cfg0.win 4).blk t).view.read (Elt Ideal) (layer m c) := by
  rw [flushed4]
  unfold out0_4
  rw [View.canon_unit_zero hz]
  simp only [View.ld_unit_zero (S := S512x2048) hz, View.ld_unit_zero (S := S1x512) hz]
  refine funext fun (j : S512x512.Idx) => ?_
  obtain ⟨p, q, rfl⟩ : ∃ (p q : Fin 512), j = ix2 p q := ⟨j 0, j 1, eq_ix2 j⟩
  show k0_pay1 (F := Ideal) (iblk m c 0 t) (iblk m c 2 t) (iblk m c 1 t) (iblk m c 3 t) (ix2 p q)
    = layer m c (((cfg0.win 4).blk t).view.emb (ix2 p q))
  refine pay_eq_layer (m ((c : Thread nD τ).loc main_arg0)) (m ((c : Thread nD τ).loc main_arg1))
    (m ((c : Thread nD τ).loc main_arg3)) (m ((c : Thread nD τ).loc main_arg2))
    (iblk m c 0 t) (iblk m c 2 t) (iblk m c 1 t) (iblk m c 3 t) (((cfg0.win 4).blk t).view.emb (ix2 p q)) p q
    (fun k => ?_) (fun k => ?_) (fun k => ?_) ?_
  · show V m c main_arg0 (((cfg0.win 0).blk t).view.emb (ix2 p k)) = _
    rw [emb_x t p q k, V_main_arg0]
    rfl
  · show V m c main_arg3 (((cfg0.win 2).blk t).view.emb (ix2 q k)) = _
    rw [emb_m t p q k, V_main_arg3]
    rfl
  · show V m c main_arg1 (((cfg0.win 1).blk t).view.emb (ix2 q k)) = _
    rw [emb_w t p q k, V_main_arg1]
    rfl
  · show (V m c main_v0 : S1x8192.Idx → EReal) (((cfg0.win 3).blk t).view.emb (ix2 0 q)) = _
    rw [emb_b t p q]
    exact V_biasRow_apply m c _

/-- An index of the output array is in point t's block iff each coordinate is in the block's range on its axis. -/
theorem mem_blk (t : Fin cfg0.N) (i : S16384x8192.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v1).slice (win0_4.rect t)).set ↔ _
  rw [View.set_slice_whole, Rect.mem_set_unit]
  exact Iff.rfl

/-- Every entry (r, n) of the output is in the block of the point (n / 512) * 32 + r / 512. -/
theorem cover (i : S16384x8192.Idx) :
    ∃ t : Fin cfg0.N, (cfg0.win 4).flush t = true ∧ i ∈ ((cfg0.win 4).blk t).view.set := by
  have hi0 : (i 0).val < 16384 := (i 0).isLt
  have hi1 : (i 1).val < 8192 := (i 1).isLt
  have hN : (i 1).val / 512 * 32 + (i 0).val / 512 < cfg0.N := by
    show _ < grid0.N
    rw [N_0]; omega
  refine ⟨⟨(i 1).val / 512 * 32 + (i 0).val / 512, hN⟩, flush0_4 _, ?_⟩
  rw [mem_blk]
  obtain ⟨e0, e1, -⟩ := idx_facts ⟨(i 1).val / 512 * 32 + (i 0).val / 512, hN⟩
  have f0 : ((i 1).val / 512 * 32 + (i 0).val / 512) % 32 = (i 0).val / 512 := by omega
  have f1 : ((i 1).val / 512 * 32 + (i 0).val / 512) / 32 = (i 1).val / 512 := by omega
  intro a
  match a with
  | ⟨0, _⟩ =>
    show win0_4.index _ (0 : Fin 2) * 512 ≤ (i 0).val ∧ (i 0).val < win0_4.index _ (0 : Fin 2) * 512 + 512
    rw [e0]; show ((i 1).val / 512 * 32 + (i 0).val / 512) % 32 * 512 ≤ _ ∧ _ < ((i 1).val / 512 * 32 + (i 0).val / 512) % 32 * 512 + 512
    rw [f0]; omega
  | ⟨1, _⟩ =>
    show win0_4.index _ (1 : Fin 2) * 512 ≤ (i 1).val ∧ (i 1).val < win0_4.index _ (1 : Fin 2) * 512 + 512
    rw [e1]; show ((i 1).val / 512 * 32 + (i 0).val / 512) / 32 * 512 ≤ _ ∧ _ < ((i 1).val / 512 * 32 + (i 0).val / 512) / 32 * 512 + 512
    rw [f1]; omega

/-- After the run the output array is the masked linear layer of the arguments. -/
theorem final (c : Dev nD) : (dats m 0 c).arrAt 4 cfg0.N = layer m c :=
  (dats m 0 c).arrAt_eq_of_cover 4 (layer m c) (fun t _ => flushed_eq m c t) cover

/-- The kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v1) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.MaskedLinear.Kernel

end
-- ==== Proof.lean ====
/-
  A linear layer with an entrywise-masked weight: y = x (mask * w)^T + b, with x of 16384 x 2048, the weight and the
  mask of 8192 x 2048, the bias of 8192 entries, y of 16384 x 8192.

  The kernel tiles the output into 32 x 16 blocks of 512 x 512. At a grid point it multiplies a 512-row block of the
  mask by the same block of the weight entry by entry, contracts a 512-row block of x with that product over the
  whole shared axis of length 2048 (no partial sums are carried between points), and adds the matching 512 bias
  entries to every row. The reference multiplies mask and weight whole, transposes, takes one `dot_general` with
  x and adds the bias broadcast over the rows.

  Over the extended reals a change of float format is the identity, so both programs compute, at every entry (r, n),

      (sum over k < 2048 of x[r, k] * (mask[n, k] * w[n, k])) + b[n]

  with the factors in the same order and the sum over the same index set: the two results are equal term by term,
  and no law that would need finite entries is used. The precondition is therefore never opened.

  The modules: Spec (that function of the four arrays), RefIsSpec (the reference, operation by operation, is it),
  KernelPayload (the body's stored value at an entry of its block), Blocks (each point writes the function read
  through its block; the blocks tile the array; the array after the run). The three runs (termination, no fault,
  arguments unchanged) are the generated ones; the idealization changed no operation, so there is nothing to preserve.
-/
import proofs.«177107_j47304769798211_1_alg».proof.Defs
import proofs.«177107_j47304769798211_1_alg».proof.Proof.Gen.Kernel
import proofs.«177107_j47304769798211_1_alg».proof.Proof.Gen.Kernel.Skeleton
import proofs.«177107_j47304769798211_1_alg».proof.Proof.Gen.Kernel.Launch
import proofs.«177107_j47304769798211_1_alg».proof.Proof.Gen.Kernel.Points
import proofs.«177107_j47304769798211_1_alg».proof.Proof.Gen.Kernel.Frame
import proofs.«177107_j47304769798211_1_alg».proof.Proof.Gen.KernelIdeal
import proofs.«177107_j47304769798211_1_alg».proof.Proof.Gen.KernelIdeal.Skeleton
import proofs.«177107_j47304769798211_1_alg».proof.Proof.Gen.KernelIdeal.Launch
import proofs.«177107_j47304769798211_1_alg».proof.Proof.Gen.KernelIdeal.Points
import proofs.«177107_j47304769798211_1_alg».proof.Proof.Gen.KernelIdeal.Frame
import proofs.«177107_j47304769798211_1_alg».proof.Proof.Gen.ReferenceIdeal
import proofs.«177107_j47304769798211_1_alg».proof.Proof.Gen.Pre_finite_inputs
import proofs.«177107_j47304769798211_1_alg».proof.Proof.Gen.KernelIdeal.Value
import proofs.«177107_j47304769798211_1_alg».proof.Proof.Gen.ReferenceIdeal.Run
import proofs.«177107_j47304769798211_1_alg».proof.Proof.Gen.ReferenceIdeal.Read
import proofs.«177107_j47304769798211_1_alg».proof.Proof.Spec
import proofs.«177107_j47304769798211_1_alg».proof.Proof.RefIsSpec
import proofs.«177107_j47304769798211_1_alg».proof.Proof.KernelPayload
import proofs.«177107_j47304769798211_1_alg».proof.Proof.Blocks
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the four arguments, the kernel's output array and the reference's result are both the
    masked linear layer of those arguments. -/
theorem algebraic : Cert.algebraic_KernelIdeal_ReferenceIdeal := by
  intro m ρ m' ρ' _ hagree
  refine ⟨fun c => Cert.MaskedLinear.Kernel.layer m c, Cert.MaskedLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.MaskedLinear.Reference.val_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
